-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x512x1024 : Shape := ⟨3, ![8, 512, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S8x512x1024 .f32) (main_arg2 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x2048x1024 : Shape := ⟨3, ![8, 2048, 1024]⟩
abbrev S8x512x1024 : Shape := ⟨3, ![8, 512, 1024]⟩
abbrev S1024x1024 : Shape := ⟨2, ![1024, 1024]⟩
abbrev S8x2048x2048 : Shape := ⟨3, ![8, 2048, 2048]⟩
abbrev S1x512x1024 : Shape := ⟨3, ![1, 512, 1024]⟩
abbrev S1x512x2048 : Shape := ⟨3, ![1, 512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S1024x1024, .f32⟩
  | .hbm, ⟨3, _⟩ => ⟨S8x2048x2048, .f32⟩
  | .hbm, ⟨4, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1x512x2048, .f32⟩
  | .local _ .vmem, ⟨6, _⟩ => ⟨S1x512x2048, .f32⟩
  | .local _ .vmem, ⟨7, _⟩ => ⟨S1x512x1024, .f32⟩
  | .local _ .vmem, ⟨8, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  reduces_S512x512_S512 : S512x512.Reduces [1] S512
  shapeCasts_S512_S512x1 : S512.ShapeCasts S512x1
  broadcasts_S512x1_S512x512 : S512x1.Broadcasts S512x512
  inb_S1x512x2048_S1x512x1024_0_0_1024 : ∀ a, (![0, 0, 1024] : Fin 3 → Nat) a + S1x512x1024.size a ≤ S1x512x2048.size a
  dot_S512x1024_S1024x1024_S512x1024_1_1_0_0_n_n_wf : DotDims.WF S512x1024 S1024x1024 S512x1024 [1] [1] [0] [0] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x512x1024.size a
  hwx0_1 : ∀ i : grid0.Coords, EltTy.bits .f32 = 32 ∨ (Rect.block (s := S8x512x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x512x1024 : Shape := ⟨3, ![8, 512, 1024]⟩
abbrev S1024x1024 : Shape := ⟨2, ![1024, 1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x1024, .f32⟩
  | .hbm, ⟨2, _⟩ => ⟨S1024x1024, .f32⟩
  | .hbm, ⟨3, _⟩ => ⟨S8x2048x1024, .f32⟩
  | .hbm, ⟨4, _⟩ => ⟨S8x2048x512, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x512, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x512, .f32⟩
  | .hbm, ⟨18, _⟩ => ⟨S8x2048x512, .f32⟩
  | .hbm, ⟨19, _⟩ => ⟨S8x2048x1024, .f32⟩
  | .hbm, ⟨20, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x512_0_1_2 : S8x2048x1.BroadcastsInDim S8x2048x512 (![0, 1, 2] : Fin 3 → Fin S8x2048x512.rank)
  concatenates_S8x2048x1024_S8x2048x1024_S8x2048x2048_d2 : Shape.Concatenates [S8x2048x1024, S8x2048x1024] S8x2048x2048 2
  dot_S8x2048x1024_S1024x1024_S8x2048x1024_2_1_01_0_n_n_wf : DotDims.WF S8x2048x1024 S1024x1024 S8x2048x1024 [2] [1] [0, 1] [0] [] []
  dot_S8x2048x1024_S8x512x1024_S8x2048x512_2_2_1_1_0_0_wf : DotDims.WF S8x2048x1024 S8x512x1024 S8x2048x512 [2] [2] [1] [1] [0] [0]
  dot_S8x2048x512_S8x512x1024_S8x2048x1024_2_1_1_2_0_0_wf : DotDims.WF S8x2048x512 S8x512x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x512x1024_S8x2048x512_2_2_1_1_0_0 : DotDims S8x2048x1024 S8x512x1024 S8x2048x512 where
  lhsContracting := [2]
  rhsContracting := [2]
  lhsNonContracting := [1]
  rhsNonContracting := [1]
  lhsBatch := [0]
  rhsBatch := [0]
  wf := dot_S8x2048x1024_S8x512x1024_S8x2048x512_2_2_1_1_0_0_wf
def dot_S8x2048x512_S8x512x1024_S8x2048x1024_2_1_1_2_0_0 : DotDims S8x2048x512 S8x512x1024 S8x2048x1024 where
  lhsContracting := [2]
  rhsContracting := [1]
  lhsNonContracting := [1]
  rhsNonContracting := [2]
  lhsBatch := [0]
  rhsBatch := [0]
  wf := dot_S8x2048x512_S8x512x1024_S8x2048x1024_2_1_1_2_0_0_wf

class Facts : Prop extends Facts₀ where

variable [Facts]
-- ==== Proof.Attention.lean ====
/-
  Single-head, unscaled attention of projected words over a batch's sentences, written one word row at a time on the
  extended reals. For a word row `x` (1024 entries), the weight matrix `Wm` (1024 × 1024) and the batch's sentence
  rows `Sm` (512 × 1024):
    projection   w f  = ∑ e, x e · Wm f e
    scores       sc n = ∑ e, w e · Sm n e
    row maximum  M    = the fold of `max` from -∞ over the 512 scores
    weights      p n  = exp (sc n - M)
    attention    a n  = p n / ∑ n', p n'
    mixture      g e  = ∑ n, a n · Sm n e
  The two results are, at word (b, s): `g` (1024 entries), and `w` and `g` side by side (2048 entries). Every operation is
  the exact one on the extended reals; the sums are finite sums in a commutative monoid, so their order does not matter,
  and no law used here needs the entries to be finite.
-/
import Idealize.ShloMosaic.PureOps.Ideal
import Idealize.ShloMosaic.Lib.ValueIdx

noncomputable section

namespace Cert.Attention

open Idealize.ShloMosaic Idealize.ShloMosaic.ValueIdx

/-- The value the f32 pattern of -∞ denotes; a row's maximum is folded from it. -/
abbrev negInf : EReal := Ideal.ofBits .f32 0xFF800000#32

/-- It is the bottom of the order: `max` against it is the identity. -/
theorem max_negInf (x : EReal) : max negInf x = x := by
  show max (Ideal.ofBits .f32 0xFF800000#32) x = x
  simp [Ideal.ofBits, Ideal.ieee]

/-! ## One word row -/

/-- The word row `x` projected by `Wm`: entry `f` is `∑ e, x e · Wm f e` (the row times the transposed matrix). -/
def proj (x : Fin 1024 → EReal) (Wm : Fin 1024 → Fin 1024 → EReal) (f : Fin 1024) : EReal :=
  ∑ e : Fin 1024, x e * Wm f e

/-- The projected row `w` scored against sentence row `n`. -/
def score (w : Fin 1024 → EReal) (Sm : Fin 512 → Fin 1024 → EReal) (n : Fin 512) : EReal :=
  ∑ e : Fin 1024, w e * Sm n e

/-- The largest of a row's 512 scores, folded from -∞. -/
def rowMax (sc : Fin 512 → EReal) : EReal := (Finset.univ : Finset (Fin 512)).fold max negInf sc

/-- The unnormalised softmax weight of score `n`. -/
def weight (sc : Fin 512 → EReal) (n : Fin 512) : EReal := Ideal.exp (sc n - rowMax sc)

/-- The sum of a row's weights. -/
def total (sc : Fin 512 → EReal) : EReal := ∑ n : Fin 512, weight sc n

/-- The softmax of a row of scores. -/
def att (sc : Fin 512 → EReal) (n : Fin 512) : EReal := Ideal.div (weight sc n) (total sc)

/-- The sentence rows mixed with the coefficients `a`. -/
def mix (a : Fin 512 → EReal) (Sm : Fin 512 → Fin 1024 → EReal) (e : Fin 1024) : EReal :=
  ∑ n : Fin 512, a n * Sm n e

/-- The attention output of word row `x`: the sentences mixed by the softmax of the projected row's scores. -/
def attend (x : Fin 1024 → EReal) (Wm : Fin 1024 → Fin 1024 → EReal) (Sm : Fin 512 → Fin 1024 → EReal) (e : Fin 1024) : EReal :=
  mix (att (score (proj x Wm) Sm)) Sm e

/-! ## The arrays -/

/-- Row (b, s) of the word array [8, 2048, 1024]. -/
def wordRow (X : (⟨3, ![8, 2048, 1024]⟩ : Shape).Idx → EReal) (b : Fin 8) (s : Fin 2048) : Fin 1024 → EReal :=
  fun e => X (ix3 b s e)

/-- Batch `b`'s 512 sentence rows, of the sentence array [8, 512, 1024]. -/
def sentRows (S : (⟨3, ![8, 512, 1024]⟩ : Shape).Idx → EReal) (b : Fin 8) : Fin 512 → Fin 1024 → EReal :=
  fun n e => S (ix3 b n e)

/-- The weight array [1024, 1024] by its two coordinates. -/
def weightMat (W : (⟨2, ![1024, 1024]⟩ : Shape).Idx → EReal) : Fin 1024 → Fin 1024 → EReal :=
  fun f e => W (ix2 f e)

/-- The projected words, [8, 2048, 1024]. -/
def projected (X : (⟨3, ![8, 2048, 1024]⟩ : Shape).Idx → EReal) (W : (⟨2, ![1024, 1024]⟩ : Shape).Idx → EReal) :
    (⟨3, ![8, 2048, 1024]⟩ : Shape).Idx → EReal :=
  fun i => proj (wordRow X (i 0) (i 1)) (weightMat W) (i 2)

/-- The attention outputs, [8, 2048, 1024]: the second result. -/
def attended (X : (⟨3, ![8, 2048, 1024]⟩ : Shape).Idx → EReal) (S : (⟨3, ![8, 512, 1024]⟩ : Shape).Idx → EReal)
    (W : (⟨2, ![1024, 1024]⟩ : Shape).Idx → EReal) : (⟨3, ![8, 2048, 1024]⟩ : Shape).Idx → EReal :=
  fun i => attend (wordRow X (i 0) (i 1)) (weightMat W) (sentRows S (i 0)) (i 2)

/-- The projected words and the attention outputs side by side along the last axis, [8, 2048, 2048]: the first result. -/
def combined (X : (⟨3, ![8, 2048, 1024]⟩ : Shape).Idx → EReal) (S : (⟨3, ![8, 512, 1024]⟩ : Shape).Idx → EReal)
    (W : (⟨2, ![1024, 1024]⟩ : Shape).Idx → EReal) : (⟨3, ![8, 2048, 2048]⟩ : Shape).Idx → EReal :=
  fun i => if h : (i 2).val < 1024 then projected X W (ix3 (i 0) (i 1) ⟨(i 2).val, h⟩)
    else attended X S W (ix3 (i 0) (i 1) ⟨(i 2).val - 1024, by have h2 : (i 2).val < 2048 := (i 2).isLt; omega⟩)

end Cert.Attention

end
-- ==== Proof.RefValue.lean ====
/-
  The reference, stage by stage, is the row-wise attention of Attention.lean: at word (b, s) its first product is the
  projected row, its batched product the row's scores, its maximum (taken once more against -∞, which changes nothing)
  the row maximum, then the weights, their sum (from zero), the quotient, the batched product with the sentences, and
  the two results the projected and the attended arrays and their side-by-side join. Each stage is read at an index
  (ix3 b s ·) and matched with the specification term by term; sums are matched summand by summand, so no law of the
  extended reals beyond `max -∞ x = x` and `0 + x = x` is used.
-/
import proofs.«418531_j16106127360635_3_alg».proof.Proof.Gen.ReferenceIdeal.Read
import proofs.«418531_j16106127360635_3_alg».proof.Proof.Attention
import Idealize.ShloMosaic.PureOps.Ideal.Laws
import Idealize.ShloMosaic.PureOps.Reduce
import Idealize.ShloMosaic.Lib.Pipeline.Value
import Idealize.ShloMosaic.Lib.ValueIdx

noncomputable section

namespace Cert.RefValue

open Cert.ReferenceIdeal Cert.ReferenceIdeal.Gen Cert.ReferenceIdeal.Read Cert.Attention
open Idealize.ShloMosaic Idealize.ShloMosaic.ValueIdx

variable (X : (⟨S8x2048x1024, .f32⟩ : BufTy).Contents (Elt Ideal)) (S : (⟨S8x512x1024, .f32⟩ : BufTy).Contents (Elt Ideal))
  (W : (⟨S1024x1024, .f32⟩ : BufTy).Contents (Elt Ideal))

/-- The scores of word (b, s), as the specification writes them. -/
abbrev scores (b : Fin 8) (s : Fin 2048) : Fin 512 → EReal :=
  score (proj (wordRow X b s) (weightMat W)) (sentRows S b)

/-- The first product at (b, s, f): the word row against row `f` of the weight matrix. -/
theorem proj_apply (b : Fin 8) (s : Fin 2048) (f : Fin 1024) :
    val_main_v0 (F := Ideal) X W (ix3 b s f) = proj (wordRow X b s) (weightMat W) f := by
  rw [val_main_v0_apply]
  unfold proj
  refine Finset.sum_congr rfl fun e _ => ?_
  have hl : lidx_main_v0 (ix3 b s f) e = ix3 b s e :=
    funext fun a => Fin.ext (by match a with | ⟨0, _⟩ => rfl | ⟨1, _⟩ => rfl | ⟨2, _⟩ => rfl)
  have hr : ridx_main_v0 (ix3 b s f) e = ix2 f e :=
    funext fun a => Fin.ext (by match a with | ⟨0, _⟩ => rfl | ⟨1, _⟩ => rfl)
  rw [hl, hr]
  rfl

/-- The batched product at (b, s, n): the projected row against sentence row `n` of batch `b`. -/
theorem score_apply (b : Fin 8) (s : Fin 2048) (n : Fin 512) :
    val_main_v1 (F := Ideal) X S W (ix3 b s n) = scores X S W b s n := by
  rw [val_main_v1_apply]
  unfold scores score
  refine Finset.sum_congr rfl fun e _ => ?_
  have hl : lidx_main_v1 (ix3 b s n) e = ix3 b s e :=
    funext fun a => Fin.ext (by match a with | ⟨0, _⟩ => rfl | ⟨1, _⟩ => rfl | ⟨2, _⟩ => rfl)
  have hr : ridx_main_v1 (ix3 b s n) e = ix3 b n e :=
    funext fun a => Fin.ext (by match a with | ⟨0, _⟩ => rfl | ⟨1, _⟩ => rfl | ⟨2, _⟩ => rfl)
  rw [hl, hr, proj_apply]
  rfl

/-- The reduction over the last axis from -∞, then the maximum with -∞ once more, at (b, s): the row maximum. -/
theorem rowMax_apply (b : Fin 8) (s : Fin 2048) :
    val_main_v4 (F := Ideal) X S W (ix2 b s) = rowMax (scores X S W b s) := by
  have h : S8x2048x512.Reduces [2] S8x2048 := by decide
  rw [val_main_v4_apply, val_main_v3_apply, val_main_cst_0_apply]
  show max (Ideal.ofBits .f32 0xFF800000#32) (val_main_v2 (F := Ideal) X S W (ix2 b s)) = _
  rw [max_negInf]
  unfold val_main_v2
  rw [Host.reduce_eq_fold_single FloatOps.maximumf _ _ reducesTo_S8x2048x512_S8x2048_d2 h h_S_]
  have hf : (val_main_v1 (F := Ideal) X S W ∘ h.lift (ix2 b s)) = scores X S W b s := funext fun n => by
    show val_main_v1 (F := Ideal) X S W (h.lift (ix2 b s) n) = _
    rw [show h.lift (ix2 b s) n = ix3 b s n from
      funext fun a => Fin.ext (by match a with | ⟨0, _⟩ => rfl | ⟨1, _⟩ => rfl | ⟨2, _⟩ => rfl)]
    exact score_apply X S W b s n
  rw [hf]
  rfl

/-- The exponential of the score less the broadcast row maximum, at (b, s, n): the weight. -/
theorem weight_apply (b : Fin 8) (s : Fin 2048) (n : Fin 512) :
    val_main_v8 (F := Ideal) X S W (ix3 b s n) = weight (scores X S W b s) n := by
  rw [val_main_v8_apply, val_main_v7_apply, val_main_v6_apply, val_main_v5_apply]
  rw [show idx_main_v5 (idx_main_v6 (ix3 b s n)) = ix2 b s from
    funext fun a => Fin.ext (by match a with | ⟨0, _⟩ => rfl | ⟨1, _⟩ => rfl)]
  rw [rowMax_apply, score_apply]
  rfl

/-- The sum of the weights over the last axis, from zero, at (b, s). -/
theorem total_apply (b : Fin 8) (s : Fin 2048) :
    val_main_v9 (F := Ideal) X S W (ix2 b s) = total (scores X S W b s) := by
  rw [val_main_v9_apply, val_main_cst_1_apply]
  show Ideal.ofBits .f32 0x00000000#32 + _ = _
  rw [Ideal.ofBits_zero_f32, zero_add]
  unfold total
  refine Finset.sum_congr rfl fun n _ => ?_
  rw [show idx_main_v9 (ix2 b s) n = ix3 b s n from
    funext fun a => Fin.ext (by match a with | ⟨0, _⟩ => rfl | ⟨1, _⟩ => rfl | ⟨2, _⟩ => rfl)]
  exact weight_apply X S W b s n

/-- The weight over the broadcast sum, at (b, s, n): the softmax. -/
theorem att_apply (b : Fin 8) (s : Fin 2048) (n : Fin 512) :
    val_main_v12 (F := Ideal) X S W (ix3 b s n) = att (scores X S W b s) n := by
  rw [val_main_v12_apply, val_main_v11_apply, val_main_v10_apply]
  rw [show idx_main_v10 (idx_main_v11 (ix3 b s n)) = ix2 b s from
    funext fun a => Fin.ext (by match a with | ⟨0, _⟩ => rfl | ⟨1, _⟩ => rfl)]
  rw [total_apply, weight_apply]
  rfl

/-- The last batched product at (b, s, e): the sentences mixed by the softmax. -/
theorem attend_apply (b : Fin 8) (s : Fin 2048) (e : Fin 1024) :
    val_main_v13 (F := Ideal) X S W (ix3 b s e) = attend (wordRow X b s) (weightMat W) (sentRows S b) e := by
  rw [val_main_v13_apply]
  unfold attend mix
  refine Finset.sum_congr rfl fun n _ => ?_
  have hl : lidx_main_v13 (ix3 b s e) n = ix3 b s n :=
    funext fun a => Fin.ext (by match a with | ⟨0, _⟩ => rfl | ⟨1, _⟩ => rfl | ⟨2, _⟩ => rfl)
  have hr : ridx_main_v13 (ix3 b s e) n = ix3 b n e :=
    funext fun a => Fin.ext (by match a with | ⟨0, _⟩ => rfl | ⟨1, _⟩ => rfl | ⟨2, _⟩ => rfl)
  rw [hl, hr, att_apply]
  rfl

/-- The reference's second result is the attended array. -/
theorem attended_eq : val_main_v13 (F := Ideal) X S W = attended X S W := by
  funext i
  rw [eq_ix3 i]
  exact attend_apply X S W (i 0) (i 1) (i 2)

/-- The reference's first product is the projected array. -/
theorem projected_eq : val_main_v0 (F := Ideal) X W = projected X W := by
  funext i
  rw [eq_ix3 i]
  exact proj_apply X W (i 0) (i 1) (i 2)

/-- The reference's first result, the join of the two along the last axis, is the combined array: below column 1024 it
    reads the first piece at the same index, from there on the second piece 1024 columns earlier. -/
theorem combined_eq : val_main_v14 (F := Ideal) X S W = combined X S W := by
  funext i
  have h2 : (i 2).val < 2048 := (i 2).isLt
  unfold val_main_v14 combined
  rw [projected_eq, attended_eq]
  by_cases h : (i 2).val < 1024
  · rw [dif_pos h]
    exact concatenate_pair_apply_left (t := S8x2048x2048) (s₁ := S8x2048x1024) (s₂ := S8x2048x1024) (2 : Fin 3)
      (projected X W) (attended X S W) concatenates_S8x2048x1024_S8x2048x1024_S8x2048x2048_d2 i rfl
      (ix3 (i 0) (i 1) ⟨(i 2).val, h⟩) (fun a => by match a with | ⟨0, _⟩ => rfl | ⟨1, _⟩ => rfl | ⟨2, _⟩ => rfl)
  · rw [dif_neg h]
    exact concatenate_pair_apply_right (t := S8x2048x2048) (s₁ := S8x2048x1024) (s₂ := S8x2048x1024) (2 : Fin 3)
      (projected X W) (attended X S W) concatenates_S8x2048x1024_S8x2048x1024_S8x2048x2048_d2 i rfl rfl
      (ix3 (i 0) (i 1) ⟨(i 2).val - 1024, by omega⟩)
      (fun a ha => by match a with | ⟨0, _⟩ => rfl | ⟨1, _⟩ => rfl | ⟨2, _⟩ => exact absurd rfl ha)
      (by show (i 2).val - 1024 + 1024 = (i 2).val; omega)

end Cert.RefValue

end
-- ==== Proof.KernelBlock.lean ====
/-
  What the kernel body computes on one grid point's blocks, read at an index of the block: with `x0` the word block
  [1, 512, 1024], `x1` the batch's sentence block [1, 512, 1024] and `x2` the weight matrix [1024, 1024], row `r` of the
  first product is the projection of row `r` of the word block, and row `r` of the last product is the attention output
  of that row over the sentence block's 512 rows — the row-wise specification of Attention.lean at the blocks' rows.
  The narrowing casts are the identity on the extended reals; each matrix product into a zero accumulator is the plain
  sum over its one contracted axis; the maximum along the lanes is the fold of `max` from -∞ and the sum along the lanes
  the plain sum; the two column vectors are broadcast back along the lanes.
-/
import proofs.«418531_j16106127360635_3_alg».proof.Proof.Gen.KernelIdeal.Skeleton
import proofs.«418531_j16106127360635_3_alg».proof.Proof.Attention
import Idealize.ShloMosaic.PureOps.Ideal.Laws
import Idealize.ShloMosaic.Lib.Pipeline.Value
import Idealize.ShloMosaic.Lib.ValueIdx
import Idealize.ShloMosaic.Lib.ValueLayout

noncomputable section

namespace Cert.KernelBlock

open Cert.KernelIdeal Cert.KernelIdeal.Gen Cert.Attention
open Idealize.ShloMosaic Idealize.ShloMosaic.ValueIdx

/-! ## The blocks by rows -/

/-- Row `r` of a [1, 512, 1024] block. -/
def blockRow (x : Vec Ideal S1x512x1024 .f32) (r : Fin 512) : Fin 1024 → EReal := fun e => x (ix3 (0 : Fin 1) r e)

/-- The 512 rows of a [1, 512, 1024] block. -/
def blockRows (x : Vec Ideal S1x512x1024 .f32) : Fin 512 → Fin 1024 → EReal := fun n e => x (ix3 (0 : Fin 1) n e)

/-- The weight block by its two coordinates. -/
def blockMat (x : Vec Ideal S1024x1024 .f32) : Fin 1024 → Fin 1024 → EReal := fun f e => x (ix2 f e)

/-! ## The three matrix products at an index -/

theorem lhs_proj_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_proj_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_proj_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_proj_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The first product, rows against rows of the second operand, into zero: entry (r, f) is `∑ k, l (r, k) · m (f, k)`. -/
theorem projDot_apply (l : FVec Ideal S512x1024 .bf16) (mm : FVec Ideal S1024x1024 .bf16) (r : Fin 512) (f : Fin 1024) :
    matmul dot_S512x1024_S1024x1024_S512x1024_1_1_0_0_n_n none l mm (constant S512x1024 .f32 0x00000000#32) (ix2 r f)
      = ∑ k : Fin 1024, l (ix2 r k) * mm (ix2 f k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r f) ((contrEquiv1 dot_S512x1024_S1024x1024_S512x1024_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x1024_S512x1024_1_1_0_0_n_n.rhsIdx (ix2 r f) ((contrEquiv1 dot_S512x1024_S1024x1024_S512x1024_1_1_0_0_n_n 1024 rfl rfl).symm k) = ix2 f k := funext fun a => Fin.ext (by
    match a with
    | ⟨0, _⟩ => exact rhs_proj_0 _ _
    | ⟨1, _⟩ => exact (rhs_proj_1 _ _).trans hk)
  rw [el, er]

theorem lhs_score_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_score_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_score_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_score_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The second product, rows against rows again: entry (r, n) is `∑ k, l (r, k) · m (n, k)`. -/
theorem scoreDot_apply (l : FVec Ideal S512x1024 .bf16) (mm : FVec Ideal S512x1024 .bf16) (r : Fin 512) (n : Fin 512) :
    matmul dot_S512x1024_S512x1024_S512x512_1_1_0_0_n_n none l mm (constant S512x512 .f32 0x00000000#32) (ix2 r n)
      = ∑ k : Fin 1024, l (ix2 r k) * mm (ix2 n k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r n) ((contrEquiv1 dot_S512x1024_S512x1024_S512x512_1_1_0_0_n_n 1024 rfl rfl).symm k) = ix2 r k := funext fun a => Fin.ext (by
    match a with
    | ⟨0, _⟩ => exact lhs_score_0 _ _
    | ⟨1, _⟩ => exact (lhs_score_1 _ _).trans hk)
  have er : dot_S512x1024_S512x1024_S512x512_1_1_0_0_n_n.rhsIdx (ix2 r n) ((contrEquiv1 dot_S512x1024_S512x1024_S512x512_1_1_0_0_n_n 1024 rfl rfl).symm k) = ix2 n k := funext fun a => Fin.ext (by
    match a with
    | ⟨0, _⟩ => exact rhs_score_0 _ _
    | ⟨1, _⟩ => exact (rhs_score_1 _ _).trans hk)
  rw [el, er]

theorem lhs_mix_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_mix_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_mix_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_mix_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The third product, rows against columns: entry (r, e) is `∑ k, l (r, k) · m (k, e)`. -/
theorem mixDot_apply (l : FVec Ideal S512x512 .bf16) (mm : FVec Ideal S512x1024 .bf16) (r : Fin 512) (e : Fin 1024) :
    matmul dot_S512x512_S512x1024_S512x1024_1_0_0_1_n_n none l mm (constant S512x1024 .f32 0x00000000#32) (ix2 r e)
      = ∑ k : Fin 512, l (ix2 r k) * mm (ix2 k e) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r e) ((contrEquiv1 dot_S512x512_S512x1024_S512x1024_1_0_0_1_n_n 512 rfl rfl).symm k) = ix2 r k := funext fun a => Fin.ext (by
    match a with
    | ⟨0, _⟩ => exact lhs_mix_0 _ _
    | ⟨1, _⟩ => exact (lhs_mix_1 _ _).trans hk)
  have er : dot_S512x512_S512x1024_S512x1024_1_0_0_1_n_n.rhsIdx (ix2 r e) ((contrEquiv1 dot_S512x512_S512x1024_S512x1024_1_0_0_1_n_n 512 rfl rfl).symm k) = ix2 k e := funext fun a => Fin.ext (by
    match a with
    | ⟨0, _⟩ => exact (rhs_mix_0 _ _).trans hk
    | ⟨1, _⟩ => exact rhs_mix_1 _ _)
  rw [el, er]

/-! ## A column vector broadcast along the lanes -/

/-- A vector of 512 entries cast to a [512, 1] column and broadcast to [512, 512] reads, at (r, n), entry `r`. -/
theorem column_apply {α : Type} (v : S512.Idx → α) (r n : Fin 512) :
    broadcastTo S512x512 (shapeCast S512x1 v shapeCasts_S512_S512x1) broadcasts_S512x1_S512x512 (ix2 r n) = v (ix1 r) := by
  refine (broadcastTo_apply _ broadcasts_S512x1_S512x512 (ix2 r n) (ix2 r (0 : Fin 1)) fun ax => ?_).trans ?_
  · match ax with
    | ⟨0, _⟩ => show r.val = if (512 : Nat) = 1 then 0 else r.val; rw [if_neg (by decide)]
    | ⟨1, _⟩ => show 0 = if (1 : Nat) = 1 then 0 else n.val; rw [if_pos rfl]
  · exact shapeCast_apply v shapeCasts_S512_S512x1 (ix2 r (0 : Fin 1)) (ix1 r) (by
      rw [Shape.rowMajor_val_one, Shape.rowMajor_val_two]
      show r.val = r.val * 1 + 0
      omega)

/-! ## The lane reductions -/

/-- The maximum along the lanes from -∞, at row `r`: the row maximum of the block's row. -/
theorem laneMax_apply (sc : FVec Ideal S512x512 .f32) (r : Fin 512) :
    multiReduction .maximumf [1] S512 sc 0xFF800000#32 reduces_S512x512_S512 (.inl rfl) rfl (ix1 r)
      = rowMax (fun n => sc (ix2 r n)) := by
  refine (Ideal.multiReduction_maximumf_single sc _ reduces_S512x512_S512 _ _ (ix1 r)).trans ?_
  have hf : (sc ∘ reduces_S512x512_S512.lift (ix1 r)) = fun n : Fin 512 => sc (ix2 r n) :=
    funext fun n => congrArg sc (funext fun a => Fin.ext (by match a with | ⟨0, _⟩ => rfl | ⟨1, _⟩ => rfl))
  exact congrArg (fun g => Finset.fold max (Ideal.ofBits .f32 0xFF800000#32) g (Finset.univ : Finset (Fin 512))) hf

/-- The sum along the lanes from zero, at row `r`: the plain sum of the block's row. -/
theorem laneSum_apply (p : FVec Ideal S512x512 .f32) (r : Fin 512) :
    multiReduction .add [1] S512 p 0x00000000#32 reduces_S512x512_S512 (.inl rfl) rfl (ix1 r)
      = ∑ n : Fin 512, p (ix2 r n) := by
  refine (Ideal.multiReduction_add_single p _ reduces_S512x512_S512 _ _ (ix1 r)).trans ?_
  exact Finset.sum_congr rfl fun n _ =>
    congrArg p (funext fun a => Fin.ext (by match a with | ⟨0, _⟩ => rfl | ⟨1, _⟩ => rfl))

/-! ## From a block of scores to the attention coefficients -/

/-- The body's weights of a score block: the exponential of each score less its row's maximum. -/
def weightBlock (sc : FVec Ideal S512x512 .f32) : FVec Ideal S512x512 .f32 :=
  exp (subf sc (broadcastTo S512x512 (shapeCast S512x1
    (multiReduction .maximumf [1] S512 sc 0xFF800000#32 reduces_S512x512_S512 (.inl rfl) rfl) shapeCasts_S512_S512x1)
    broadcasts_S512x1_S512x512))

/-- The body's coefficients of a score block: each weight over its row's sum. -/
def attBlock (sc : FVec Ideal S512x512 .f32) : FVec Ideal S512x512 .f32 :=
  divf (weightBlock sc) (broadcastTo S512x512 (shapeCast S512x1
    (multiReduction .add [1] S512 (weightBlock sc) 0x00000000#32 reduces_S512x512_S512 (.inl rfl) rfl) shapeCasts_S512_S512x1)
    broadcasts_S512x1_S512x512)

theorem weightBlock_apply (sc : FVec Ideal S512x512 .f32) (r n : Fin 512) :
    weightBlock sc (ix2 r n) = weight (fun n => sc (ix2 r n)) n := by
  unfold weightBlock
  show Ideal.exp (sc (ix2 r n) - broadcastTo S512x512 (shapeCast S512x1
    (multiReduction .maximumf [1] S512 sc 0xFF800000#32 reduces_S512x512_S512 (.inl rfl) rfl) shapeCasts_S512_S512x1)
    broadcasts_S512x1_S512x512 (ix2 r n)) = _
  rw [column_apply, laneMax_apply]
  rfl

theorem attBlock_apply (sc : FVec Ideal S512x512 .f32) (r n : Fin 512) :
    attBlock sc (ix2 r n) = att (fun n => sc (ix2 r n)) n := by
  unfold attBlock
  show Ideal.div (weightBlock sc (ix2 r n)) (broadcastTo S512x512 (shapeCast S512x1
    (multiReduction .add [1] S512 (weightBlock sc) 0x00000000#32 reduces_S512x512_S512 (.inl rfl) rfl) shapeCasts_S512_S512x1)
    broadcasts_S512x1_S512x512 (ix2 r n)) = _
  rw [column_apply, laneSum_apply, weightBlock_apply]
  unfold att total
  exact congrArg (Ideal.div _) (Finset.sum_congr rfl fun k _ => weightBlock_apply sc r k)

/-! ## The payloads -/

/-- The body's first product at (r, f): the projection of row `r` of the word block. -/
theorem pay1_apply (x0 : Vec Ideal S1x512x1024 .f32) (x2 : Vec Ideal S1024x1024 .f32) (r : Fin 512) (f : Fin 1024) :
    k0_pay1 (F := Ideal) x0 x2 (ix2 r f) = proj (blockRow x0 r) (blockMat x2) f := by
  unfold k0_pay1
  show matmul dot_S512x1024_S1024x1024_S512x1024_1_1_0_0_n_n none (truncf .bf16 (shapeCast S512x1024 x0 shapeCasts_S1x512x1024_S512x1024) bitsLt_bf16_f32)
    (truncf (F := Ideal) .bf16 x2 bitsLt_bf16_f32) (constant S512x1024 .f32 0x00000000#32) (ix2 r f) = _
  refine (projDot_apply _ _ r f).trans ?_
  unfold proj
  refine Finset.sum_congr rfl fun k _ => ?_
  show shapeCast S512x1024 x0 shapeCasts_S1x512x1024_S512x1024 (ix2 r k) * x2 (ix2 f k)
    = x0 (ix3 (0 : Fin 1) r k) * x2 (ix2 f k)
  rw [shapeCast_1ab_ab_apply]

/-- The body's score block: the narrowed first product against the narrowed sentence block. -/
def scoreBlock (x0 : Vec Ideal S1x512x1024 .f32) (x2 : Vec Ideal S1024x1024 .f32) (x1 : Vec Ideal S1x512x1024 .f32) :
    FVec Ideal S512x512 .f32 :=
  matmul dot_S512x1024_S512x1024_S512x512_1_1_0_0_n_n none (truncf .bf16 (k0_pay1 x0 x2) bitsLt_bf16_f32)
    (truncf .bf16 (shapeCast S512x1024 x1 shapeCasts_S1x512x1024_S512x1024) bitsLt_bf16_f32)
    (constant S512x512 .f32 0x00000000#32)

/-- At (r, n) it is the score of the projected row `r` against sentence row `n`. -/
theorem scoreBlock_apply (x0 : Vec Ideal S1x512x1024 .f32) (x2 : Vec Ideal S1024x1024 .f32) (x1 : Vec Ideal S1x512x1024 .f32)
    (r n : Fin 512) :
    scoreBlock x0 x2 x1 (ix2 r n) = score (proj (blockRow x0 r) (blockMat x2)) (blockRows x1) n := by
  unfold scoreBlock
  refine (scoreDot_apply _ _ r n).trans ?_
  unfold score
  refine Finset.sum_congr rfl fun k _ => ?_
  show k0_pay1 (F := Ideal) x0 x2 (ix2 r k) * shapeCast S512x1024 x1 shapeCasts_S1x512x1024_S512x1024 (ix2 n k)
    = proj (blockRow x0 r) (blockMat x2) k * x1 (ix3 (0 : Fin 1) n k)
  rw [pay1_apply, shapeCast_1ab_ab_apply]

/-- The body's last product is the coefficients of the score block against the narrowed sentence block. -/
theorem pay3_eq (x0 : Vec Ideal S1x512x1024 .f32) (x2 : Vec Ideal S1024x1024 .f32) (x1 : Vec Ideal S1x512x1024 .f32) :
    k0_pay3 (F := Ideal) x0 x2 x1 = matmul dot_S512x512_S512x1024_S512x1024_1_0_0_1_n_n none
      (truncf .bf16 (attBlock (scoreBlock x0 x2 x1)) bitsLt_bf16_f32)
      (truncf .bf16 (shapeCast S512x1024 x1 shapeCasts_S1x512x1024_S512x1024) bitsLt_bf16_f32)
      (constant S512x1024 .f32 0x00000000#32) := rfl

/-- The body's last product at (r, e): the attention output of row `r` of the word block over the sentence block. -/
theorem pay3_apply (x0 : Vec Ideal S1x512x1024 .f32) (x2 : Vec Ideal S1024x1024 .f32) (x1 : Vec Ideal S1x512x1024 .f32)
    (r : Fin 512) (e : Fin 1024) :
    k0_pay3 (F := Ideal) x0 x2 x1 (ix2 r e) = attend (blockRow x0 r) (blockMat x2) (blockRows x1) e := by
  rw [pay3_eq]
  refine (mixDot_apply _ _ r e).trans ?_
  unfold attend mix
  refine Finset.sum_congr rfl fun k _ => ?_
  show attBlock (scoreBlock x0 x2 x1) (ix2 r k) * shapeCast S512x1024 x1 shapeCasts_S1x512x1024_S512x1024 (ix2 k e)
    = att (score (proj (blockRow x0 r) (blockMat x2)) (blockRows x1)) k * x1 (ix3 (0 : Fin 1) k e)
  rw [attBlock_apply, shapeCast_1ab_ab_apply]
  have hs : (fun n => scoreBlock x0 x2 x1 (ix2 r n)) = score (proj (blockRow x0 r) (blockMat x2)) (blockRows x1) :=
    funext fun n => scoreBlock_apply x0 x2 x1 r n
  rw [hs]

end Cert.KernelBlock

end
-- ==== Proof.BlockResults.lean ====
/-
  What the body leaves in its two output blocks, as functions of the block index. The second result's block [1, 512, 1024]
  is stored whole: at (·, r, e) it holds the attention output of row `r` of the word block. The first result's block
  [1, 512, 2048] is stored in two halves along its last axis, columns 0–1023 from the projection and columns 1024–2047 from
  the attention output; the two rectangles tile the block, so every entry comes from exactly the half its column lies in.
-/
import proofs.«418531_j16106127360635_3_alg».proof.Proof.Gen.KernelIdeal.Frame
import proofs.«418531_j16106127360635_3_alg».proof.Proof.KernelBlock
import Idealize.ShloMosaic.Lib.Pipeline.Value
import Idealize.ShloMosaic.Lib.ValueIdx
import Idealize.ShloMosaic.Lib.ValueLayout

noncomputable section

namespace Cert.BlockResults

open Cert.KernelIdeal Cert.KernelIdeal.Gen Cert.Attention Cert.KernelBlock
open Idealize.ShloMosaic Idealize.ShloMosaic.ValueIdx

theorem zeros3 : (![0, 0, 0] : Fin 3 → Nat) = fun _ => 0 := funext fun a => by fin_cases a <;> rfl
theorem zeros2 : (![0, 0] : Fin 2 → Nat) = fun _ => 0 := funext fun a => by fin_cases a <;> rfl

/-- The first result's block as one function of its index: the projection of row `y 1` in the left half of the columns,
    the attention output of that row in the right half. -/
def combBlock (x0 x1 : Vec Ideal S1x512x1024 .f32) (x2 : Vec Ideal S1024x1024 .f32) : Vec Ideal S1x512x2048 .f32 :=
  fun y => if h : (y 2).val < 1024 then proj (blockRow x0 (y 1)) (blockMat x2) ⟨(y 2).val, h⟩
    else attend (blockRow x0 (y 1)) (blockMat x2) (blockRows x1)
      ⟨(y 2).val - 1024, by have h2 : (y 2).val < 2048 := (y 2).isLt; omega⟩

/-- In the left half of the columns the block holds the projection of its row. -/
theorem combBlock_left (x0 x1 : Vec Ideal S1x512x1024 .f32) (x2 : Vec Ideal S1024x1024 .f32) (u : Fin 1) (r : Fin 512)
    (q : Fin 2048) (h : q.val < 1024) :
    combBlock x0 x1 x2 (ix3 u r q) = proj (blockRow x0 r) (blockMat x2) ⟨q.val, h⟩ :=
  dif_pos h

/-- In the right half it holds the attention output of its row, 1024 columns earlier. -/
theorem combBlock_right (x0 x1 : Vec Ideal S1x512x1024 .f32) (x2 : Vec Ideal S1024x1024 .f32) (u : Fin 1) (r : Fin 512)
    (q : Fin 2048) (h : ¬ q.val < 1024) :
    combBlock x0 x1 x2 (ix3 u r q) = attend (blockRow x0 r) (blockMat x2) (blockRows x1)
      ⟨q.val - 1024, by have h2 : q.val < 2048 := q.isLt; omega⟩ :=
  dif_neg h

/-- The store of the left half, at its own index, is `combBlock` at the block index under it. -/
theorem piece_left (x0 x1 : Vec Ideal S1x512x1024 .f32) (x2 : Vec Ideal S1024x1024 .f32) (x : S1x512x1024.Idx) :
    k0_pay2 (F := Ideal) x0 x2 x = combBlock x0 x1 x2 (r0_2.idx x) := by
  obtain ⟨u, r, e, rfl⟩ : ∃ (u : Fin 1) (r : Fin 512) (e : Fin 1024), x = ix3 u r e := ⟨x 0, x 1, x 2, eq_ix3 x⟩
  have hr : r.val < 512 := r.isLt
  have he : e.val < 1024 := e.isLt
  have hlt : ((r0_2.idx (ix3 u r e)) 2).val < 1024 := by show 0 + 1 * e.val < 1024; omega
  unfold combBlock
  rw [dif_pos hlt]
  show shapeCast S1x512x1024 (k0_pay1 (F := Ideal) x0 x2) shapeCasts_S512x1024_S1x512x1024 (ix3 u r e) = _
  rw [shapeCast_ab_1ab_apply, pay1_apply]
  have h1 : ((r0_2.idx (ix3 u r e)) 1 : Fin 512) = r := Fin.ext (by show 0 + 1 * r.val = r.val; omega)
  have h2 : (⟨((r0_2.idx (ix3 u r e)) 2).val, hlt⟩ : Fin 1024) = e := Fin.ext (by show 0 + 1 * e.val = e.val; omega)
  rw [h1, h2]

/-- The store of the right half, at its own index, is `combBlock` at the block index under it. -/
theorem piece_right (x0 x1 : Vec Ideal S1x512x1024 .f32) (x2 : Vec Ideal S1024x1024 .f32) (x : S1x512x1024.Idx) :
    k0_pay5 (F := Ideal) x0 x2 x1 x = combBlock x0 x1 x2 (r0_3.idx x) := by
  obtain ⟨u, r, e, rfl⟩ : ∃ (u : Fin 1) (r : Fin 512) (e : Fin 1024), x = ix3 u r e := ⟨x 0, x 1, x 2, eq_ix3 x⟩
  have hr : r.val < 512 := r.isLt
  have he : e.val < 1024 := e.isLt
  have hge : ¬ ((r0_3.idx (ix3 u r e)) 2).val < 1024 := by show ¬ (1024 + 1 * e.val < 1024); omega
  unfold combBlock
  rw [dif_neg hge]
  show shapeCast S1x512x1024 (k0_pay3 (F := Ideal) x0 x2 x1) shapeCasts_S512x1024_S1x512x1024 (ix3 u r e) = _
  rw [shapeCast_ab_1ab_apply, pay3_apply]
  have h1 : ((r0_3.idx (ix3 u r e)) 1 : Fin 512) = r := Fin.ext (by show 0 + 1 * r.val = r.val; omega)
  have h2 : (⟨((r0_3.idx (ix3 u r e)) 2).val - 1024, by
      have h2 : ((r0_3.idx (ix3 u r e)) 2).val < 2048 := ((r0_3.idx (ix3 u r e)) 2).isLt; omega⟩ : Fin 1024) = e :=
    Fin.ext (by show 1024 + 1 * e.val - 1024 = e.val; omega)
  rw [h1, h2]

/-- WHAT THE BODY LEAVES in the first result's block. -/
theorem out3_eq (x0 x1 : Vec Ideal S1x512x1024 .f32) (x2 : Vec Ideal S1024x1024 .f32) :
    out0_3 (F := Ideal) x0 x1 x2 = combBlock x0 x1 x2 := by
  funext y
  unfold out0_3
  simp only [View.ld_unit_zero (S := S1x512x1024) zeros3, View.ld_unit_zero (S := S1024x1024) zeros2]
  refine View.canon_apply_of_pieces (combBlock x0 x1 x2) _ ?_ y (cover0_3 _ _ y)
  intro pc hpc
  rcases List.mem_cons.mp hpc with rfl | hpc
  · exact fun x => piece_right x0 x1 x2 x
  rcases List.mem_cons.mp hpc with rfl | hpc
  · exact fun x => piece_left x0 x1 x2 x
  nomatch hpc

/-- WHAT THE BODY LEAVES in the second result's block, at (u, r, e). -/
theorem out4_apply (x0 x1 : Vec Ideal S1x512x1024 .f32) (x2 : Vec Ideal S1024x1024 .f32) (u : Fin 1) (r : Fin 512)
    (e : Fin 1024) :
    out0_4 (F := Ideal) x0 x1 x2 (ix3 u r e) = attend (blockRow x0 r) (blockMat x2) (blockRows x1) e := by
  unfold out0_4
  rw [View.canon_unit_zero zeros3]
  simp only [View.ld_unit_zero (S := S1x512x1024) zeros3, View.ld_unit_zero (S := S1024x1024) zeros2]
  show shapeCast S1x512x1024 (k0_pay3 (F := Ideal) x0 x2 x1) shapeCasts_S512x1024_S1x512x1024 (ix3 u r e) = _
  rw [shapeCast_ab_1ab_apply, pay3_apply]

end Cert.BlockResults

end
-- ==== Proof.KernelArray.lean ====
/-
  From blocks to arrays. The grid has 8 × 4 points; point (b, j) stages word rows 512·j … 512·j + 511 of batch `b`, all of
  batch `b`'s sentence rows and the whole weight matrix, and writes back rows 512·j … 512·j + 511 of batch `b` of both
  results. So row `r` of the word block is word row (b, 512·j + r), the sentence block is batch `b`'s sentences, and what
  the point writes back is block (b, j) of the attended array, and of the combined array; the 32 blocks tile both
  arrays, so after the run the second result is the attended array and the first the combined one.
-/
import proofs.«418531_j16106127360635_3_alg».proof.Proof.Gen.KernelIdeal.Value
import proofs.«418531_j16106127360635_3_alg».proof.Proof.BlockResults
import Idealize.ShloMosaic.Lib.Pipeline.Value
import Idealize.ShloMosaic.Lib.ValueIdx

noncomputable section

namespace Cert.KernelArray

open Cert.KernelIdeal Cert.KernelIdeal.Gen Cert.Attention Cert.KernelBlock Cert.BlockResults
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The combined array by halves -/

theorem combined_left (X : (⟨3, ![8, 2048, 1024]⟩ : Shape).Idx → EReal) (S : (⟨3, ![8, 512, 1024]⟩ : Shape).Idx → EReal)
    (W : (⟨2, ![1024, 1024]⟩ : Shape).Idx → EReal) (i : (⟨3, ![8, 2048, 2048]⟩ : Shape).Idx) (h : (i 2).val < 1024) :
    combined X S W i = proj (wordRow X (i 0) (i 1)) (weightMat W) ⟨(i 2).val, h⟩ :=
  (dif_pos h).trans rfl

theorem combined_right (X : (⟨3, ![8, 2048, 1024]⟩ : Shape).Idx → EReal) (S : (⟨3, ![8, 512, 1024]⟩ : Shape).Idx → EReal)
    (W : (⟨2, ![1024, 1024]⟩ : Shape).Idx → EReal) (i : (⟨3, ![8, 2048, 2048]⟩ : Shape).Idx) (h : ¬ (i 2).val < 1024) :
    combined X S W i = attend (wordRow X (i 0) (i 1)) (weightMat W) (sentRows S (i 0))
      ⟨(i 2).val - 1024, by have h2 : (i 2).val < 2048 := (i 2).isLt; omega⟩ :=
  (dif_neg h).trans rfl

/-! ## The index maps over the grid -/

/-- The printed index maps, decided over the 32 points: the word window and both result windows sit at block
    (batch, row tile, 0), the sentence window at (batch, 0, 0), the weight window at (0, 0). -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (2 : Fin 3) = 0
    ∧ win0_4.index t (0 : Fin 3) = win0_3.index t (0 : Fin 3)
    ∧ win0_4.index t (1 : Fin 3) = win0_3.index t (1 : Fin 3)
    ∧ win0_4.index t (2 : Fin 3) = 0
    ∧ win0_3.index t (0 : Fin 3) ≤ 7
    ∧ win0_3.index t (1 : Fin 3) ≤ 3 :=
  (by decide +kernel : ∀ t : Fin grid0.N, _)

/-- Every (batch, row tile) is some point's block, for each result window. -/
theorem idx_onto3 : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])
theorem idx_onto4 : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-! ## The input blocks by rows -/

/-- At point `t`, whose result blocks sit at batch `b` and start at word row `s - r`: row `r` of the word block is word
    row (b, s), the sentence block is batch `b`'s sentence rows, the weight block is the weight matrix. -/
theorem rows_of_point (c : Dev nD) (t : Fin cfg0.N) (r : Fin 512) (b : Fin 8) (s : Fin 2048)
    (hb : b.val = win0_3.index t (0 : Fin 3)) (hs : s.val = win0_3.index t (1 : Fin 3) * 512 + r.val) :
    blockRow (iblk m c 0 t) r = wordRow (V m c main_arg0) b s
    ∧ blockRows (iblk m c 1 t) = sentRows (V m c main_arg1) b
    ∧ blockMat (iblk m c 2 t) = weightMat (V m c main_arg2) := by
  obtain ⟨e00, e01, e02, e10, e11, e12, e20, e21, e32, e40, e41, e42, b0, b1⟩ := idx_facts t
  refine ⟨funext fun k => ?_, funext fun n => funext fun k => ?_, funext fun f => funext fun k => ?_⟩
  · show V m c main_arg0 (((cfg0.win 0).blk t).view.emb (ix3 (0 : Fin 1) r k)) = V m c main_arg0 (ix3 b s k)
    refine congrArg (V m c main_arg0) (funext fun a => Fin.ext ?_)
    match a with
    | ⟨0, _⟩ => show win0_0.index t (0 : Fin 3) * 1 + 1 * 0 = b.val; omega
    | ⟨1, _⟩ => show win0_0.index t (1 : Fin 3) * 512 + 1 * r.val = s.val; omega
    | ⟨2, _⟩ => show win0_0.index t (2 : Fin 3) * 1024 + 1 * k.val = k.val; omega
  · show V m c main_arg1 (((cfg0.win 1).blk t).view.emb (ix3 (0 : Fin 1) n k)) = V m c main_arg1 (ix3 b n k)
    refine congrArg (V m c main_arg1) (funext fun a => Fin.ext ?_)
    match a with
    | ⟨0, _⟩ => show win0_1.index t (0 : Fin 3) * 1 + 1 * 0 = b.val; omega
    | ⟨1, _⟩ => show win0_1.index t (1 : Fin 3) * 512 + 1 * n.val = n.val; omega
    | ⟨2, _⟩ => show win0_1.index t (2 : Fin 3) * 1024 + 1 * k.val = k.val; omega
  · show V m c main_arg2 (((cfg0.win 2).blk t).view.emb (ix2 f k)) = V m c main_arg2 (ix2 f k)
    refine congrArg (V m c main_arg2) (funext fun a => Fin.ext ?_)
    match a with
    | ⟨0, _⟩ => show win0_2.index t (0 : Fin 2) * 1024 + 1 * f.val = f.val; omega
    | ⟨1, _⟩ => show win0_2.index t (1 : Fin 2) * 1024 + 1 * k.val = k.val; omega

/-! ## What each point writes back -/

/-- Point `t` writes back block `t` of the attended array. -/
theorem flushed4_eq (c : Dev nD) (t : Fin cfg0.N) :
    (dats m 0 c).flushed 4 t = ((cfg0.win 4).blk t).view.read (Elt Ideal)
      (attended (V m c main_arg0) (V m c main_arg1) (V m c main_arg2)) := by
  rw [Cert.KernelIdeal.Value.flushed4]
  obtain ⟨e00, e01, e02, e10, e11, e12, e20, e21, e32, e40, e41, e42, b0, b1⟩ := idx_facts t
  funext j
  obtain ⟨u, r, e, rfl⟩ : ∃ (u : Fin 1) (r : Fin 512) (e : Fin 1024), j = ix3 u r e :=
    ⟨j 0, j 1, j 2, @eq_ix3 1 512 1024 j⟩
  have hu : u.val < 1 := u.isLt
  have hr : r.val < 512 := r.isLt
  have he : e.val < 1024 := e.isLt
  show out0_4 (iblk m c 0 t) (iblk m c 1 t) (iblk m c 2 t) (ix3 u r e)
    = attended (V m c main_arg0) (V m c main_arg1) (V m c main_arg2) (((cfg0.win 4).blk t).view.emb (ix3 u r e))
  refine (out4_apply (iblk m c 0 t) (iblk m c 1 t) (iblk m c 2 t) u r e).trans ?_
  have hi0 : ((((cfg0.win 4).blk t).view.emb (ix3 u r e)) 0).val = win0_4.index t (0 : Fin 3) * 1 + 1 * u.val := rfl
  have hi1 : ((((cfg0.win 4).blk t).view.emb (ix3 u r e)) 1).val = win0_4.index t (1 : Fin 3) * 512 + 1 * r.val := rfl
  have hi2 : ((((cfg0.win 4).blk t).view.emb (ix3 u r e)) 2).val = win0_4.index t (2 : Fin 3) * 1024 + 1 * e.val := rfl
  obtain ⟨h0, h1, h2⟩ := rows_of_point m c t r ((((cfg0.win 4).blk t).view.emb (ix3 u r e)) 0)
    ((((cfg0.win 4).blk t).view.emb (ix3 u r e)) 1) (by omega) (by omega)
  unfold attended
  rw [h0, h1, h2]
  exact congrArg (attend _ _ _) (Fin.ext (by omega))

/-- Point `t` writes back block `t` of the combined array. -/
theorem flushed3_eq (c : Dev nD) (t : Fin cfg0.N) :
    (dats m 0 c).flushed 3 t = ((cfg0.win 3).blk t).view.read (Elt Ideal)
      (combined (V m c main_arg0) (V m c main_arg1) (V m c main_arg2)) := by
  rw [Cert.KernelIdeal.Value.flushed3]
  obtain ⟨e00, e01, e02, e10, e11, e12, e20, e21, e32, e40, e41, e42, b0, b1⟩ := idx_facts t
  funext j
  obtain ⟨u, r, q, rfl⟩ : ∃ (u : Fin 1) (r : Fin 512) (q : Fin 2048), j = ix3 u r q :=
    ⟨j 0, j 1, j 2, @eq_ix3 1 512 2048 j⟩
  have hu : u.val < 1 := u.isLt
  have hr : r.val < 512 := r.isLt
  have hq2 : q.val < 2048 := q.isLt
  show out0_3 (iblk m c 0 t) (iblk m c 1 t) (iblk m c 2 t) (ix3 u r q)
    = combined (V m c main_arg0) (V m c main_arg1) (V m c main_arg2) (((cfg0.win 3).blk t).view.emb (ix3 u r q))
  refine (congrFun (out3_eq (iblk m c 0 t) (iblk m c 1 t) (iblk m c 2 t)) (ix3 u r q)).trans ?_
  have hi0 : ((((cfg0.win 3).blk t).view.emb (ix3 u r q)) 0).val = win0_3.index t (0 : Fin 3) * 1 + 1 * u.val := rfl
  have hi1 : ((((cfg0.win 3).blk t).view.emb (ix3 u r q)) 1).val = win0_3.index t (1 : Fin 3) * 512 + 1 * r.val := rfl
  have hi2 : ((((cfg0.win 3).blk t).view.emb (ix3 u r q)) 2).val = win0_3.index t (2 : Fin 3) * 2048 + 1 * q.val := rfl
  obtain ⟨h0, h1, h2⟩ := rows_of_point m c t r ((((cfg0.win 3).blk t).view.emb (ix3 u r q)) 0)
    ((((cfg0.win 3).blk t).view.emb (ix3 u r q)) 1) (by omega) (by omega)
  by_cases hq : q.val < 1024
  · rw [combBlock_left _ _ _ u r q hq, combined_left _ _ _ _ (by omega), h0, h2]
    exact congrArg (proj _ _) (Fin.ext (by show q.val = ((((cfg0.win 3).blk t).view.emb (ix3 u r q)) 2).val; omega))
  · rw [combBlock_right _ _ _ u r q hq, combined_right _ _ _ _ (by omega), h0, h1, h2]
    exact congrArg (attend _ _ _)
      (Fin.ext (by show q.val - 1024 = ((((cfg0.win 3).blk t).view.emb (ix3 u r q)) 2).val - 1024; omega))

/-! ## The blocks tile the arrays -/

theorem mem_blk3 (t : Fin cfg0.N) (i : S8x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0_0).slice (win0_3.rect t)).set ↔ _
  rw [View.set_slice_whole, Rect.mem_set_unit]
  exact Iff.rfl

theorem mem_blk4 (t : Fin cfg0.N) (i : S8x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v0_1).slice (win0_4.rect t)).set ↔ _
  rw [View.set_slice_whole, Rect.mem_set_unit]
  exact Iff.rfl

/-- Every index of the first result is in the block of the point at its batch and its row's tile. -/
theorem cover3 (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := idx_onto3 ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- Every index of the second result likewise. -/
theorem cover4 (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht⟩ := idx_onto4 ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-! ## The arrays after the run -/

/-- The first result after the run is the combined array of the arguments. -/
theorem final3 (c : Dev nD) : (dats m 0 c).arrAt 3 cfg0.N
    = combined (m ((c : Thread nD τ).loc main_arg0)) (m ((c : Thread nD τ).loc main_arg1)) (m ((c : Thread nD τ).loc main_arg2)) :=
  (dats m 0 c).arrAt_eq_of_cover 3 (combined (V m c main_arg0) (V m c main_arg1) (V m c main_arg2))
    (fun t _ => flushed3_eq m c t) cover3

/-- The second result after the run is the attended array of the arguments. -/
theorem final4 (c : Dev nD) : (dats m 0 c).arrAt 4 cfg0.N
    = attended (m ((c : Thread nD τ).loc main_arg0)) (m ((c : Thread nD τ).loc main_arg1)) (m ((c : Thread nD τ).loc main_arg2)) :=
  (dats m 0 c).arrAt_eq_of_cover 4 (attended (V m c main_arg0) (V m c main_arg1) (V m c main_arg2))
    (fun t _ => flushed4_eq m c t) cover4

/-- The kernel's run: every weakly fair execution ends with the first result at the combined array and the second at the
    attended array of the argument arrays, the arguments unchanged. -/
theorem run : θ_run defs (onTc (τ := τ) (main (F := Ideal))) ⟨m, fun _ => 0, ρ⟩ fun r => ∀ c : Dev nD,
      r.2.mem ((c : Thread nD τ).loc main_v0_0)
        = combined (m ((c : Thread nD τ).loc main_arg0)) (m ((c : Thread nD τ).loc main_arg1)) (m ((c : Thread nD τ).loc main_arg2))
      ∧ r.2.mem ((c : Thread nD τ).loc main_v0_1)
        = attended (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelArray

end
-- ==== Proof.lean ====
/-
  The kernel and its reference are one function on the extended reals. Both compute, for every batch `b` and word `s`,
  the projected word `w = x · Wᵀ`, its scores against the batch's 512 sentences, the softmax of those scores (the
  exponential of each score less the row's maximum, over the sum of those exponentials) and the sentences mixed by it,
  `g`; the results are `[w | g]` and `g`. The kernel does this on a grid of 8 × 4 points, 512 words at a time, with its
  operands narrowed to bf16 before each matrix product; the reference on whole arrays, taking the row maximum once more
  against -∞. On the extended reals a narrowing is the identity, `max -∞ x = x`, and each matrix product, lane sum and
  host sum is the same finite sum, so the two sides agree term by term, index by index: no law that needs finite entries is
  used, and the precondition is never opened.
    Attention.lean     the specification, one word row at a time, and the two result arrays
    RefValue.lean      the reference's stages read at an index are the specification
    KernelBlock.lean   the body's products, reductions and softmax on one point's blocks are the specification of their rows
    BlockResults.lean  what the body leaves in each output block
    KernelArray.lean   the 32 blocks tile the arrays: the kernel's run ends at the specification's arrays
  The three frames are the generated ones (the reference's is its generated run with the results dropped); nothing was
  rewritten when the kernel was idealized, so that claim is `True`.
-/
import proofs.«418531_j16106127360635_3_alg».proof.Defs
import proofs.«418531_j16106127360635_3_alg».proof.Proof.Gen.Kernel
import proofs.«418531_j16106127360635_3_alg».proof.Proof.Gen.Kernel.Skeleton
import proofs.«418531_j16106127360635_3_alg».proof.Proof.Gen.Kernel.Launch
import proofs.«418531_j16106127360635_3_alg».proof.Proof.Gen.Kernel.Points
import proofs.«418531_j16106127360635_3_alg».proof.Proof.Gen.Kernel.Frame
import proofs.«418531_j16106127360635_3_alg».proof.Proof.Gen.KernelIdeal
import proofs.«418531_j16106127360635_3_alg».proof.Proof.Gen.KernelIdeal.Skeleton
import proofs.«418531_j16106127360635_3_alg».proof.Proof.Gen.KernelIdeal.Launch
import proofs.«418531_j16106127360635_3_alg».proof.Proof.Gen.KernelIdeal.Points
import proofs.«418531_j16106127360635_3_alg».proof.Proof.Gen.KernelIdeal.Frame
import proofs.«418531_j16106127360635_3_alg».proof.Proof.Gen.ReferenceIdeal
import proofs.«418531_j16106127360635_3_alg».proof.Proof.Gen.Pre_finite_inputs
import proofs.«418531_j16106127360635_3_alg».proof.Proof.Gen.KernelIdeal.Value
import proofs.«418531_j16106127360635_3_alg».proof.Proof.Gen.ReferenceIdeal.Run
import proofs.«418531_j16106127360635_3_alg».proof.Proof.Gen.ReferenceIdeal.Read
import proofs.«418531_j16106127360635_3_alg».proof.Proof.RefValue
import proofs.«418531_j16106127360635_3_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the three arguments, the kernel ends with its results at the combined and the attended
    arrays of its arguments (KernelArray.lean), and the reference at the same two arrays of its own (RefValue.lean). -/
theorem algebraic : Cert.algebraic_KernelIdeal_ReferenceIdeal := by
  intro m ρ m' ρ' _ hagree
  refine ⟨_, _, Cert.KernelArray.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v14_eq, Cert.RefValue.combined_eq, (hagree c).1, (hagree c).2.1, (hagree c).2.2]
  · rw [Cert.ReferenceIdeal.Read.val_main_v13_eq, Cert.RefValue.attended_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
